-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x480 : Shape := ⟨2, ![200000, 480]⟩
abbrev S480 : Shape := ⟨1, ![480]⟩
abbrev S_ : Shape := ⟨0, ![]⟩

class Facts : Prop where
  bcast_S_S200000x480 : S_.BroadcastsInDim S200000x480 (![] : Fin 0 → Fin S200000x480.rank)
  reducesTo_S200000x480_S_d0_1 : S200000x480.ReducesTo [0, 1] S_
  h_S_ : 0 < S_.numel

variable [Facts]

def fn {F : FTy → Type} [FloatOps F] (main_arg0 : FVec F S200000x480 .f32) (main_arg1 : IVec S480 32) : IVec S_ 1 :=
  let main_v0 : FVec F S200000x480 .f32 := Host.absf main_arg0
  let main_cst : FVec F S_ .f32 := constant S_ .f32 0x7F800000#32
  let main_v1 : FVec F S200000x480 .f32 := broadcastInDim S200000x480 ![] bcast_S_S200000x480 main_cst
  let main_v2 : IVec S200000x480 1 := cmpf .olt main_v0 main_v1
  let main_c : IVec S_ 1 := constantI S_ 1 1#1
  let main_v3 : IVec S_ 1 := (fun x v => Host.reduce IntOp.andi x v reducesTo_S200000x480_S_d0_1 h_S_) main_v2 main_c
  main_v3
-- ==== Kernel.lean ====
abbrev S200000x480 : Shape := ⟨2, ![200000, 480]⟩
abbrev S480 : Shape := ⟨1, ![480]⟩
abbrev S480x1 : Shape := ⟨2, ![480, 1]⟩
abbrev S1x224 : Shape := ⟨2, ![1, 224]⟩
abbrev S480x224 : Shape := ⟨2, ![480, 224]⟩
abbrev S200000x224 : Shape := ⟨2, ![200000, 224]⟩
abbrev S2000x480 : Shape := ⟨2, ![2000, 480]⟩
abbrev S2000x224 : Shape := ⟨2, ![2000, 224]⟩

abbrev nBuf : Space → Nat
  | .hbm => 9
  | .vmem => 5
  | .smem => 0
  | _ => 0

abbrev bufTy : (tb : Table) → Fin (tcTables nBuf tb) → BufTy
  | .hbm, ⟨0, _⟩ => ⟨S200000x480, .f32⟩
  | .hbm, ⟨1, _⟩ => ⟨S480, .i32⟩
  | .hbm, ⟨2, _⟩ => ⟨S480x1, .i32⟩
  | .hbm, ⟨3, _⟩ => ⟨S1x224, .i32⟩
  | .hbm, ⟨4, _⟩ => ⟨S480x224, .i32⟩
  | .hbm, ⟨5, _⟩ => ⟨S480x224, .i32⟩
  | .hbm, ⟨6, _⟩ => ⟨S480x224, .i1⟩
  | .hbm, ⟨7, _⟩ => ⟨S480x224, .bf16⟩
  | .hbm, ⟨8, _⟩ => ⟨S200000x224, .f32⟩
  | .local _ .vmem, ⟨0, _⟩ => ⟨S2000x480, .f32⟩
  | .local _ .vmem, ⟨1, _⟩ => ⟨S2000x480, .f32⟩
  | .local _ .vmem, ⟨2, _⟩ => ⟨S480x224, .bf16⟩
  | .local _ .vmem, ⟨3, _⟩ => ⟨S2000x224, .f32⟩
  | .local _ .vmem, ⟨4, _⟩ => ⟨S2000x224, .f32⟩
  | _, _ => ⟨S200000x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S480_S480x1_0 : S480.BroadcastsInDim S480x1 (![0] : Fin 1 → Fin S480x1.rank)
  bcast_S480x1_S480x224_0_1 : S480x1.BroadcastsInDim S480x224 (![0, 1] : Fin 2 → Fin S480x224.rank)
  bcast_S1x224_S480x224_0_1 : S1x224.BroadcastsInDim S480x224 (![0, 1] : Fin 2 → Fin S480x224.rank)
  inb_S2000x480_S2000x480_0_0 : ∀ a, (![0, 0] : Fin 2 → Nat) a + S2000x480.size a ≤ S2000x480.size a
  h_S2000x480 : 0 < S2000x480.numel
  bitsLt_bf16_f32 : FTy.bits .bf16 < FTy.bits .f32
  inb_S480x224_S480x224_0_0 : ∀ a, (![0, 0] : Fin 2 → Nat) a + S480x224.size a ≤ S480x224.size a
  h_S480x224 : 0 < S480x224.numel
  shapeCasts_S480x224_S480x224 : S480x224.ShapeCasts S480x224
  inb_S2000x224_S2000x224_0_0 : ∀ a, (![0, 0] : Fin 2 → Nat) a + S2000x224.size a ≤ S2000x224.size a
  h_S2000x224 : 0 < S2000x224.numel
  dot_S2000x480_S480x224_S2000x224_1_0_0_1_n_n_wf : DotDims.WF S2000x480 S480x224 S2000x224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x480.size a ≤ S200000x480.size a
  hwx0_0 : ∀ i : grid0.Coords, EltTy.bits .f32 = 32 ∨ (Rect.block (s := S200000x480) S2000x480.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x224.size a ≤ S480x224.size a
  hwx0_1 : ∀ i : grid0.Coords, EltTy.bits .bf16 = 32 ∨ (Rect.block (s := S480x224) S480x224.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x224.size a ≤ S200000x224.size a
  hwx0_2 : ∀ i : grid0.Coords, EltTy.bits .f32 = 32 ∨ (Rect.block (s := S200000x224) S2000x224.size (cc0_transform_2 i) (hinb0_2 i)).WholeWords (EltTy.packing .f32)

variable [Facts₀]

def dot_S2000x480_S480x224_S2000x224_1_0_0_1_n_n : DotDims S2000x480 S480x224 S2000x224 where
  lhsContracting := [1]
  rhsContracting := [0]
  lhsNonContracting := [0]
  rhsNonContracting := [1]
  lhsBatch := []
  rhsBatch := []
  wf := dot_S2000x480_S480x224_S2000x224_1_0_0_1_n_n_wf

abbrev win0_0 : Pipeline.Window sig grid0 :=
  Pipeline.Window.ofSpec (Memref.whole main_arg0) S2000x480.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S480x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x480 : Shape := ⟨2, ![200000, 480]⟩
abbrev S480 : Shape := ⟨1, ![480]⟩
abbrev S480x200000 : Shape := ⟨2, ![480, 200000]⟩
abbrev S_ : Shape := ⟨0, ![]⟩
abbrev S224x200000 : Shape := ⟨2, ![224, 200000]⟩
abbrev S480x1 : Shape := ⟨2, ![480, 1]⟩
abbrev S200000x224 : Shape := ⟨2, ![200000, 224]⟩

abbrev nBuf : Space → Nat
  | .hbm => 10
  | .vmem => 0
  | .smem => 0
  | _ => 0

abbrev bufTy : (tb : Table) → Fin (tcTables nBuf tb) → BufTy
  | .hbm, ⟨0, _⟩ => ⟨S200000x480, .f32⟩
  | .hbm, ⟨1, _⟩ => ⟨S480, .i32⟩
  | .hbm, ⟨2, _⟩ => ⟨S200000x480, .f32⟩
  | .hbm, ⟨3, _⟩ => ⟨S480x200000, .f32⟩
  | .hbm, ⟨4, _⟩ => ⟨S_, .f32⟩
  | .hbm, ⟨5, _⟩ => ⟨S224x200000, .f32⟩
  | .hbm, ⟨6, _⟩ => ⟨S480x1, .i32⟩
  | .hbm, ⟨7, _⟩ => ⟨S224x200000, .f32⟩
  | .hbm, ⟨8, _⟩ => ⟨S200000x224, .f32⟩
  | .hbm, ⟨9, _⟩ => ⟨S200000x224, .f32⟩
  | _, _ => ⟨S200000x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S200000x480_S480x200000_1_0 : S200000x480.Transposes [1, 0] S480x200000
  bcast_S_S224x200000 : S_.BroadcastsInDim S224x200000 (![] : Fin 0 → Fin S224x200000.rank)
  bcast_S480_S480x1_0 : S480.BroadcastsInDim S480x1 (![0] : Fin 1 → Fin S480x1.rank)
  transposes_S224x200000_S200000x224_1_0 : S224x200000.Transposes [1, 0] S200000x224
  scatter_S224x200000_S480x1_S480x200000_1_0_0_1_wf : ScatterDims.WF S224x200000 S480x1 S480x200000 [1] [0] [0] 1

variable [Facts₀]

def scatter_S224x200000_S480x1_S480x200000_1_0_0_1 : ScatterDims S224x200000 S480x1 S480x200000 where
  updateWindowDims := [1]
  insertedWindowDims := [0]
  scatterDimsToOperandDims := [0]
  indexVectorDim := 1
  wf := scatter_S224x200000_S480x1_S480x200000_1_0_0_1_wf

class Facts : Prop extends Facts₀ where

variable [Facts]
-- ==== Proof.Payload.lean ====
/-
  The kernel body's value at an index, over the extended reals.

  The body squares its block of rows, multiplies the squares (a change of float format is the identity here) by the
  selector block on the matrix unit into a zero accumulator, and takes the square root. So at row `p` and segment
  `q` of the block it holds the square root of the sum over the 480 channels `c` of `x (p, c)² · s (c, q)`: the
  contraction index of the product is the channel.
-/
import proofs.«416942_j19585050869974_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The left operand is read at the output's row … -/
theorem lhs_row (j : S2000x224.Idx) (k : dot_S2000x480_S480x224_S2000x224_1_0_0_1_n_n.contr.Idx) :
    (dot_S2000x480_S480x224_S2000x224_1_0_0_1_n_n.lhsIdx j k 0).val = (j 0).val := rfl
/-- … and the contracted channel; -/
theorem lhs_chan (j : S2000x224.Idx) (k : dot_S2000x480_S480x224_S2000x224_1_0_0_1_n_n.contr.Idx) :
    (dot_S2000x480_S480x224_S2000x224_1_0_0_1_n_n.lhsIdx j k 1).val = (k ⟨0, by decide⟩).val := rfl
/-- the right operand at the contracted channel … -/
theorem rhs_chan (j : S2000x224.Idx) (k : dot_S2000x480_S480x224_S2000x224_1_0_0_1_n_n.contr.Idx) :
    (dot_S2000x480_S480x224_S2000x224_1_0_0_1_n_n.rhsIdx j k 0).val = (k ⟨0, by decide⟩).val := rfl
/-- … and the output's column. -/
theorem rhs_col (j : S2000x224.Idx) (k : dot_S2000x480_S480x224_S2000x224_1_0_0_1_n_n.contr.Idx) :
    (dot_S2000x480_S480x224_S2000x224_1_0_0_1_n_n.rhsIdx j k 1).val = (j 1).val := rfl

/-- The stored value at `(p, q)`: the square root of the selector-weighted sum of the row's squares. -/
theorem pay_apply (x0 : Vec Ideal S2000x480 .f32) (x1 : Vec Ideal S480x224 .bf16) (p : Fin 2000) (q : Fin 224) :
    k0_pay1 (F := Ideal) x0 x1 (ix2 p q)
      = Ideal.sqrt (∑ c : Fin 480, x0 (ix2 p c) * x0 (ix2 p c) * x1 (ix2 c q)) := by
  unfold k0_pay1
  show Ideal.sqrt (FloatOps.matmul (F := Ideal) dot_S2000x480_S480x224_S2000x224_1_0_0_1_n_n none
      (truncf .bf16 (mulf x0 x0) bitsLt_bf16_f32) (shapeCast S480x224 x1 shapeCasts_S480x224_S480x224)
      (constant S2000x224 .f32 0x00000000#32) (ix2 p q)) = _
  rw [Ideal.matmul_constant_zero_apply, shapeCast_self]
  congr 1
  rw [← Equiv.sum_comp (contrEquiv1 dot_S2000x480_S480x224_S2000x224_1_0_0_1_n_n 480 rfl rfl).symm]
  refine Finset.sum_congr rfl fun c _ => ?_
  have hl : dot_S2000x480_S480x224_S2000x224_1_0_0_1_n_n.lhsIdx (ix2 p q) ((contrEquiv1 dot_S2000x480_S480x224_S2000x224_1_0_0_1_n_n 480 rfl rfl).symm c) = ix2 p c := by
    funext a; apply Fin.ext
    match a with
    | ⟨0, _⟩ => exact lhs_row _ _
    | ⟨1, _⟩ => exact (lhs_chan _ _).trans (contrEquiv1_symm_val dot_S2000x480_S480x224_S2000x224_1_0_0_1_n_n 480 rfl rfl c)
  have hr : dot_S2000x480_S480x224_S2000x224_1_0_0_1_n_n.rhsIdx (ix2 p q) ((contrEquiv1 dot_S2000x480_S480x224_S2000x224_1_0_0_1_n_n 480 rfl rfl).symm c) = ix2 c q := by
    funext a; apply Fin.ext
    match a with
    | ⟨0, _⟩ => exact (rhs_chan _ _).trans (contrEquiv1_symm_val dot_S2000x480_S480x224_S2000x224_1_0_0_1_n_n 480 rfl rfl c)
    | ⟨1, _⟩ => exact rhs_col _ _
  rw [hl, hr]
  rfl

end Cert.KernelIdeal.Payload

end
-- ==== Proof.Selector.lean ====
/-
  The selector matrix the launch finds.

  Before the launch the host spreads the channel ids down a column, spreads `0 … 223` along a row, compares the two
  for equality and converts the bit to a float: entry `(c, q)` is `1` when channel `c`'s id is the word `q` and `0`
  otherwise. For `q < 224` a 32-bit word equals `q` exactly when its signed reading is `q`, which is how the
  specification reads an id.
-/
import proofs.«416942_j19585050869974_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Selector

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The selector as a function of the channel ids: the host prefix's composed term. -/
def selector (seg : IVec S480 32) : FVec F S480x224 .bf16 :=
  uitofp .bf16 (cmpi .eq
    (broadcastInDim S480x224 ![0, 1] bcast_S480x1_S480x224_0_1 (broadcastInDim S480x1 ![0] bcast_S480_S480x1_0 seg))
    (broadcastInDim S480x224 ![0, 1] bcast_S1x224_S480x224_0_1 (iotaInDim S1x224 32 1)))

/-- The second operand's array at the launch is the selector of the ids as launched. -/
theorem V_selector (c : Dev nD) :
    (V m c main_v0 : S480x224.Idx → Elt F .bf16) = selector (m ((c : Thread nD τ).loc main_arg1)) := by
  dsimp only [V, hostOps0]; after_results; rfl

/-- The id column, at row `c`. -/
theorem col_apply (seg : IVec S480 32) (c : Fin 480) (u : Fin 1) :
    broadcastInDim S480x1 ![0] bcast_S480_S480x1_0 seg (ix2 c u) = seg (ix1 c) :=
  broadcastInDim_apply _ bcast_S480_S480x1_0 seg (ix2 c u) (ix1 c) (fun a => match a with
    | ⟨0, _⟩ => by show c.val = if (480 : Nat) = 1 then 0 else c.val; rw [if_neg (by decide)])

/-- The column spread over the 224 segments reads its row. -/
theorem rows_apply (v : IVec S480x1 32) (c : Fin 480) (q : Fin 224) :
    broadcastInDim S480x224 ![0, 1] bcast_S480x1_S480x224_0_1 v (ix2 c q) = v (ix2 c (0 : Fin 1)) :=
  broadcastInDim_apply _ bcast_S480x1_S480x224_0_1 v (ix2 c q) (ix2 c (0 : Fin 1)) (fun a => match a with
    | ⟨0, _⟩ => by show c.val = if (480 : Nat) = 1 then 0 else c.val; rw [if_neg (by decide)]
    | ⟨1, _⟩ => by show (0 : Nat) = if (1 : Nat) = 1 then 0 else q.val; rw [if_pos rfl])

/-- The row of segment numbers spread over the 480 channels reads its column. -/
theorem cols_apply (v : IVec S1x224 32) (c : Fin 480) (q : Fin 224) :
    broadcastInDim S480x224 ![0, 1] bcast_S1x224_S480x224_0_1 v (ix2 c q) = v (ix2 (0 : Fin 1) q) :=
  broadcastInDim_apply _ bcast_S1x224_S480x224_0_1 v (ix2 c q) (ix2 (0 : Fin 1) q) (fun a => match a with
    | ⟨0, _⟩ => by show (0 : Nat) = if (1 : Nat) = 1 then 0 else c.val; rw [if_pos rfl]
    | ⟨1, _⟩ => by show q.val = if (224 : Nat) = 1 then 0 else q.val; rw [if_neg (by decide)])

/-- A 32-bit word is the small number `q` exactly when its signed reading is `q`. -/
theorem word_eq_iff_toInt (a : BitVec 32) (q : Nat) (hq : q < 224) :
    a = BitVec.ofNat 32 q ↔ a.toInt = (q : Int) := by
  have ha : a.toNat < 2 ^ 32 := a.isLt
  constructor
  · intro h
    subst h
    rw [BitVec.toInt_eq_toNat_cond, BitVec.toNat_ofNat]
    have : q % 2 ^ 32 = q := Nat.mod_eq_of_lt (by omega)
    rw [this, if_pos (by omega)]
  · intro h
    apply BitVec.eq_of_toNat_eq
    rw [BitVec.toNat_ofNat, Nat.mod_eq_of_lt (by omega)]
    rw [BitVec.toInt_eq_toNat_cond] at h
    split at h <;> omega

/-- Over the extended reals the selector at `(c, q)` is `1` when channel `c`'s id reads `q`, else `0`. -/
theorem selector_apply (seg : IVec S480 32) (c : Fin 480) (q : Fin 224) :
    selector (F := Ideal) seg (ix2 c q) = if (seg (ix1 c)).toInt = (q.val : Int) then (1 : EReal) else 0 := by
  unfold selector
  show FloatOps.uitofp (F := Ideal) .bf16 (IntOp.cmpi .eq
      (broadcastInDim S480x224 ![0, 1] bcast_S480x1_S480x224_0_1 (broadcastInDim S480x1 ![0] bcast_S480_S480x1_0 seg) (ix2 c q))
      (broadcastInDim S480x224 ![0, 1] bcast_S1x224_S480x224_0_1 (iotaInDim S1x224 32 1) (ix2 c q))) = _
  rw [rows_apply, col_apply, cols_apply]
  show (((IntOp.cmpi .eq (seg (ix1 c)) (BitVec.ofNat 32 q.val)).toNat : ℝ) : EReal) = _
  by_cases h : seg (ix1 c) = BitVec.ofNat 32 q.val
  · rw [StableHlo.Predicate.cmpi_eq_iff.2 h, if_pos ((word_eq_iff_toInt _ _ q.isLt).1 h)]
    simp
  · have h0 : IntOp.cmpi .eq (seg (ix1 c)) (BitVec.ofNat 32 q.val) = 0#1 :=
      eq_zero_of_ne_one (fun e => h (StableHlo.Predicate.cmpi_eq_iff.1 e))
    rw [h0, if_neg (fun e => h ((word_eq_iff_toInt _ _ q.isLt).2 e))]
    simp

end Cert.KernelIdeal.Selector

end
-- ==== Proof.LibSegmentRows.lean ====
/-
  A row-wise segment sum read at an index.

  The segment sum of the rows of a matrix `u : [C, N]` by an id per row is a float scatter-add into a `[G, N]` array
  with one scatter index per row of `u` (the indices a column `[C, 1]`), the whole row as the update window. Over the
  extended reals the result at `(g, n)` is the operand there plus the sum of `u (c, n)` over exactly the rows `c` whose
  index, read signed, is `g`; a row whose index is negative or at least `G` lands nowhere and is dropped. Stated for
  any sizes `G`, `C`, `N`.

  Beside it the law that meets a 0/1 selector matrix: a sum of terms each multiplied by an indicator is the sum of
  the selected terms. It holds for every extended real (only `a * 1 = a` and `a * 0 = 0` are used), infinities included.
-/
import Idealize.ShloMosaic.PureOps.Ideal
import Idealize.ShloMosaic.Lib.ValueIdx

noncomputable section

open scoped BigOperators

namespace SegmentRows

open Idealize.ShloMosaic Idealize.ShloMosaic.ValueIdx

variable {G C N : Nat}

/-- The operand of a row-wise segment sum: `G` segments by `N` columns. -/
abbrev SOp (G N : Nat) : Shape := ⟨2, ![G, N]⟩
/-- Its scatter indices: one per row of the updates, as a column. -/
abbrev SIx (C : Nat) : Shape := ⟨2, ![C, 1]⟩
/-- Its updates: `C` rows by `N` columns. -/
abbrev SUp (C N : Nat) : Shape := ⟨2, ![C, N]⟩

/-- The dimension numbers of a row-wise segment sum: the updates' axis 1 is the window, the operand's axis 0 is
    inserted and is the axis the index names, the index vector lies along the indices' axis 1. -/
abbrev rowScatter (wf : ScatterDims.WF (SOp G N) (SIx C) (SUp C N) [1] [0] [0] 1) :
    ScatterDims (SOp G N) (SIx C) (SUp C N) :=
  { updateWindowDims := [1], insertedWindowDims := [0], scatterDimsToOperandDims := [0], indexVectorDim := 1, wf := wf }

variable (wf : ScatterDims.WF (SOp G N) (SIx C) (SUp C N) [1] [0] [0] 1)

/-- On the segment axis the window of update `(c, n)` starts at row `c`'s index, read signed. -/
theorem start_seg {w : Nat} (j : (SUp C N).Idx) (idx : IVec (SIx C) w) :
    (rowScatter wf).start j idx 0 = (idx (ix2 (j 0) (0 : Fin 1))).toInt := by
  unfold ScatterDims.start
  rw [dif_pos (show (0 : Fin 2) ∈ [(0 : Fin 2)] by decide)]
  congr 2
  funext b
  match b with
  | ⟨0, _⟩ => rfl
  | ⟨1, _⟩ => rfl

/-- On the column axis it starts at zero: no index names that axis. -/
theorem start_col {w : Nat} (j : (SUp C N).Idx) (idx : IVec (SIx C) w) :
    (rowScatter wf).start j idx 1 = 0 := by
  unfold ScatterDims.start
  rw [dif_neg (show (1 : Fin 2) ∉ [(0 : Fin 2)] by decide)]

/-- The segment axis is inserted: the window has no extent there. -/
theorem window_seg (j : (SUp C N).Idx) : (rowScatter wf).window j 0 = 0 := by
  unfold ScatterDims.window
  have h : (0 : Fin (SOp G N).rank) ∉ (rowScatter wf).sKept :=
    (show (0 : Fin 2) ∉ (List.finRange 2).filter (· ∉ [(0 : Fin 2)]) by decide)
  rw [dif_neg h]

/-- Along the columns the window coordinate is the update's column. -/
theorem window_col (j : (SUp C N).Idx) : (rowScatter wf).window j 1 = (j 1).val := by
  unfold ScatterDims.window
  have h : (1 : Fin (SOp G N).rank) ∈ (rowScatter wf).sKept :=
    (show (1 : Fin 2) ∈ (List.finRange 2).filter (· ∉ [(0 : Fin 2)]) by decide)
  rw [dif_pos h]
  rfl

/-- Update `(c, n')` lands on `(g, n)` exactly when row `c`'s index, read signed, is `g` and `n' = n`. An index
    outside `[0, G)` lands nowhere. -/
theorem resultIdx?_eq_some_iff {w : Nat} (j : (SUp C N).Idx) (idx : IVec (SIx C) w) (g : Fin G) (n : Fin N) :
    (rowScatter wf).resultIdx? j idx = some (ix2 g n)
      ↔ (idx (ix2 (j 0) (0 : Fin 1))).toInt = (g.val : Int) ∧ j 1 = n := by
  have hg : g.val < G := g.isLt
  have hn : n.val < N := n.isLt
  have hj : (j 1).val < N := (j 1).isLt
  unfold ScatterDims.resultIdx?
  split
  · rename_i h
    rw [Option.some.injEq]
    constructor
    · intro e
      have e0 : ((rowScatter wf).start j idx 0 + (rowScatter wf).window j 0).toNat = g.val :=
        congrArg Fin.val (congrFun e 0)
      have e1 : ((rowScatter wf).start j idx 1 + (rowScatter wf).window j 1).toNat = n.val :=
        congrArg Fin.val (congrFun e 1)
      have h0 := (h 0).1
      rw [start_seg, window_seg] at e0 h0
      rw [start_col, window_col] at e1
      exact ⟨by omega, Fin.ext (by omega)⟩
    · rintro ⟨e0, e1⟩
      funext a
      apply Fin.ext
      match a with
      | ⟨0, _⟩ =>
        show ((rowScatter wf).start j idx 0 + (rowScatter wf).window j 0).toNat = g.val
        rw [start_seg, window_seg]; omega
      | ⟨1, _⟩ =>
        show ((rowScatter wf).start j idx 1 + (rowScatter wf).window j 1).toNat = n.val
        rw [start_col, window_col, ← e1]; omega
  · rename_i h
    constructor
    · intro e; cases e
    · rintro ⟨e0, e1⟩
      exfalso; apply h
      intro a
      match a with
      | ⟨0, _⟩ =>
        show 0 ≤ (rowScatter wf).start j idx 0 + (rowScatter wf).window j 0
          ∧ (rowScatter wf).start j idx 0 + (rowScatter wf).window j 0 < (G : Int)
        rw [start_seg, window_seg]; omega
      | ⟨1, _⟩ =>
        show 0 ≤ (rowScatter wf).start j idx 1 + (rowScatter wf).window j 1
          ∧ (rowScatter wf).start j idx 1 + (rowScatter wf).window j 1 < (N : Int)
        rw [start_col, window_col]; omega

/-- THE SEGMENT SUM AT AN INDEX: over the extended reals the scatter-add's result at `(g, n)` is the operand there
    plus the sum, over the rows `c` whose index is `g`, of the update at `(c, n)`. -/
theorem scatterAdd_rows_apply {w : Nat} (x : (SOp G N).Idx → EReal) (idx : IVec (SIx C) w)
    (upd : (SUp C N).Idx → EReal) (g : Fin G) (n : Fin N) :
    Ideal.hostScatterAdd (rowScatter wf) x idx upd (ix2 g n)
      = x (ix2 g n) + ∑ c : Fin C, if (idx (ix2 c (0 : Fin 1))).toInt = (g.val : Int) then upd (ix2 c n) else 0 := by
  unfold Ideal.hostScatterAdd
  congr 1
  rw [Finset.sum_filter, sum_idx2]
  refine Finset.sum_congr rfl fun c _ => ?_
  have key : ∀ b : Fin N, (if (rowScatter wf).resultIdx? (ix2 c b) idx = some (ix2 g n) then upd (ix2 c b) else 0)
      = if (idx (ix2 c (0 : Fin 1))).toInt = (g.val : Int) ∧ b = n then upd (ix2 c b) else 0 :=
    fun b => if_congr (resultIdx?_eq_some_iff wf (ix2 c b) idx g n) rfl rfl
  rw [Finset.sum_congr rfl (fun b _ => key b)]
  by_cases hc : (idx (ix2 c (0 : Fin 1))).toInt = (g.val : Int)
  · simp only [hc, true_and, if_true]
    rw [Finset.sum_ite_eq' Finset.univ n (fun b => upd (ix2 c b)), if_pos (Finset.mem_univ _)]
  · simp only [hc, false_and, if_false, Finset.sum_const_zero]

/-- A sum against a 0/1 selector is the sum of the selected terms, for all extended reals. -/
theorem sum_mul_indicator {ι : Type} [Fintype ι] (a : ι → EReal) (P : ι → Prop) [DecidablePred P] :
    ∑ c, a c * (if P c then (1 : EReal) else 0) = ∑ c, if P c then a c else 0 :=
  Finset.sum_congr rfl fun c _ => by
    by_cases h : P c
    · rw [if_pos h, if_pos h, mul_one]
    · rw [if_neg h, if_neg h, mul_zero]

end SegmentRows

end
-- ==== Proof.Norms.lean ====
/-
  The specification both programs meet: the per-segment Euclidean norms of each row.

  For a matrix `x : [200000, 480]` and a segment id per channel `seg : [480]`, entry `(n, g)` is the square root of the
  sum of `x (n, c)²` over the channels `c` whose id, read as a signed integer, is `g`. A channel whose id is outside
  `[0, 224)` belongs to no segment and is dropped. Everything is over the extended reals; a segment with no channel
  has norm `√0 = 0`.
-/
import Idealize.ShloMosaic.PureOps.Ideal
import Idealize.ShloMosaic.Lib.ValueIdx

noncomputable section

open scoped BigOperators

namespace Cert.Norms

open Idealize.ShloMosaic Idealize.ShloMosaic.ValueIdx

abbrev SX : Shape := ⟨2, ![200000, 480]⟩
abbrev SSeg : Shape := ⟨1, ![480]⟩
abbrev SOut : Shape := ⟨2, ![200000, 224]⟩

/-- The sum of squares of row `n` over the channels of segment `g`. -/
def segSq (x : SX.Idx → EReal) (seg : SSeg.Idx → BitVec 32) (n : Fin 200000) (g : Fin 224) : EReal :=
  ∑ c : Fin 480, if (seg (ix1 c)).toInt = (g.val : Int) then x (ix2 n c) * x (ix2 n c) else 0

/-- The segment norms, index by index. -/
def norms (x : SX.Idx → EReal) (seg : SSeg.Idx → BitVec 32) : SOut.Idx → EReal :=
  fun i => Ideal.sqrt (segSq x seg (i 0) (i 1))

theorem norms_apply (x : SX.Idx → EReal) (seg : SSeg.Idx → BitVec 32) (n : Fin 200000) (g : Fin 224) :
    norms x seg (ix2 n g) = Ideal.sqrt (segSq x seg n g) := rfl

end Cert.Norms

end
-- ==== Proof.KernelNorms.lean ====
/-
  The kernel's result array is the segment norms.

  Grid point `t` of 100 handles rows `2000 t … 2000 t + 1999`: it reads that block of the matrix and the whole selector,
  and writes the block of the result. Entry `(p, q)` of what it writes is the square root of
  `Σ_c x (2000 t + p, c)² · s (c, q)`, and since `s (c, q)` is `1` when channel `c`'s id is `q` and `0` otherwise, the sum
  keeps exactly segment `q`'s channels: the norm at row `2000 t + p`. The 100 blocks tile the 200000 rows, so the
  array ends holding the norms everywhere.
-/
import proofs.«416942_j19585050869974_3_alg».proof.Proof.Gen.KernelIdeal.Value
import proofs.«416942_j19585050869974_3_alg».proof.Proof.Payload
import proofs.«416942_j19585050869974_3_alg».proof.Proof.Selector
import proofs.«416942_j19585050869974_3_alg».proof.Proof.LibSegmentRows
import proofs.«416942_j19585050869974_3_alg».proof.Proof.Norms

set_option maxRecDepth 16384

noncomputable section

open scoped BigOperators

namespace Cert.KernelIdeal.KernelNorms

open Cert.KernelIdeal Cert.KernelIdeal.Gen Idealize.ShloMosaic Idealize.ShloMosaic.TcCoe Idealize.SL.Sem
open Idealize.ShloMosaic.Pipeline (Dat)
open Idealize.ShloMosaic.ValueIdx Cert.Norms Cert.KernelIdeal.Selector

variable (m : (ℓ : Loc nD τ sig) → Buf (Elt Ideal) ℓ) (ρ : Dev nD → PrngReg)

/-- Weighting a row's squares by the selector's column `q` and summing keeps segment `q`'s channels. -/
theorem weighted_eq_norm (x : SX.Idx → EReal) (seg : IVec S480 32) (r : Fin 200000) (q : Fin 224) :
    Ideal.sqrt (∑ c' : Fin 480, x (ix2 r c') * x (ix2 r c') * selector (F := Ideal) seg (ix2 c' q))
      = norms x seg (ix2 r q) := by
  rw [norms_apply]
  unfold segSq
  congr 1
  rw [Finset.sum_congr rfl (fun c' _ => by rw [selector_apply])]
  exact SegmentRows.sum_mul_indicator (fun c' => x (ix2 r c') * x (ix2 r c')) (fun c' => (seg (ix1 c')).toInt = (q.val : Int))

theorem hz : (![0, 0] : Fin 2 → Nat) = fun _ => 0 := funext fun a => by fin_cases a <;> rfl

/-- The printed index maps over the grid: the matrix's and the result's block move down one block of rows per point,
    the selector's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 100 := lt_of_lt_of_eq t.isLt N_0

/-- Row `p` of point `t`'s block is row `2000 t + p` of the array. -/
def row (t : Fin cfg0.N) (p : Fin 2000) : Fin 200000 := ⟨t.val * 2000 + p.val, by have := t_lt t; have := p.isLt; omega⟩

/-- The matrix block at point `t` reads the matrix at the point's rows. -/
theorem xblk_apply (c : Dev nD) (t : Fin cfg0.N) (p : Fin 2000) (c' : Fin 480) :
    iblk m c 0 t (ix2 p c') = m ((c : Thread nD τ).loc main_arg0) (ix2 (row t p) c') := by
  show V m c main_arg0 (((cfg0.win 0).blk t).view.emb (ix2 p c')) = _
  rw [V_main_arg0]
  obtain ⟨e0, e1, -, -, -, -⟩ := idx_facts t
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 480 + 1 * c'.val = c'.val; omega

/-- The selector block at every point is the whole selector. -/
theorem sblk_apply (c : Dev nD) (t : Fin cfg0.N) (c' : Fin 480) (q : Fin 224) :
    iblk m c 1 t (ix2 c' q) = selector (F := Ideal) (m ((c : Thread nD τ).loc main_arg1)) (ix2 c' q) := by
  show V m c main_v0 (((cfg0.win 1).blk t).view.emb (ix2 c' q)) = _
  rw [V_selector]
  obtain ⟨-, -, e2, e3, -, -⟩ := idx_facts t
  refine congrArg _ (funext fun a => Fin.ext ?_)
  match a with
  | ⟨0, _⟩ => show win0_1.index t (0 : Fin 2) * 480 + 1 * c'.val = c'.val; omega
  | ⟨1, _⟩ => show win0_1.index t (1 : Fin 2) * 224 + 1 * q.val = q.val; omega

/-- The result block at point `t` sits at the point's rows. -/
theorem oblk_emb (t : Fin cfg0.N) (p : Fin 2000) (q : Fin 224) :
    ((cfg0.win 2).blk t).view.emb (ix2 p q) = ix2 (row t p) q := by
  obtain ⟨-, -, -, -, e4, e5⟩ := idx_facts t
  refine funext fun a => Fin.ext ?_
  match a with
  | ⟨0, _⟩ => show win0_2.index t (0 : Fin 2) * 2000 + 1 * p.val = t.val * 2000 + p.val; omega
  | ⟨1, _⟩ => show win0_2.index t (1 : Fin 2) * 224 + 1 * q.val = q.val; omega

/-- What point `t` writes back is block `t` of the segment norms of the arguments. -/
theorem flushed_eq (c : Dev nD) (t : Fin cfg0.N) :
    (dats m 0 c).flushed 2 t = ((cfg0.win 2).blk t).view.read (Elt Ideal)
      (norms (m ((c : Thread nD τ).loc main_arg0)) (m ((c : Thread nD τ).loc main_arg1))) := by
  rw [Value.flushed2]
  unfold out0_2
  rw [View.canon_unit_zero hz]
  simp only [View.ld_unit_zero (S := S2000x480) hz, View.ld_unit_zero (S := S480x224) hz]
  funext j
  obtain ⟨p, q, rfl⟩ : ∃ (p : Fin 2000) (q : Fin 224), j = ix2 p q := ⟨j 0, j 1, eq_ix2 j⟩
  show k0_pay1 (F := Ideal) (iblk m c 0 t) (iblk m c 1 t) (ix2 p q)
    = norms (m ((c : Thread nD τ).loc main_arg0)) (m ((c : Thread nD τ).loc main_arg1)) (((cfg0.win 2).blk t).view.emb (ix2 p q))
  refine (Payload.pay_apply (iblk m c 0 t) (iblk m c 1 t) p q).trans ?_
  rw [oblk_emb, ← weighted_eq_norm]
  congr 1
  refine Finset.sum_congr rfl fun c' _ => ?_
  rw [xblk_apply, sblk_apply]

/-- An array index is in point `t`'s block iff each coordinate is in the block's range. -/
theorem mem_blk (t : Fin cfg0.N) (i : S200000x224.Idx) :
    i ∈ ((cfg0.win 2).blk t).view.set ↔ ∀ a : Fin 2, win0_2.index t a * S2000x224.size a ≤ (i a).val ∧ (i a).val < win0_2.index t a * S2000x224.size a + S2000x224.size a := by
  show i ∈ ((View.whole main_v1).slice (win0_2.rect t)).set ↔ _
  rw [View.set_slice_whole, Rect.mem_set_unit]
  exact Iff.rfl

/-- Every row belongs to the block of the point `row / 2000`. -/
theorem cover (i : S200000x224.Idx) :
    ∃ t : Fin cfg0.N, (cfg0.win 2).flush t = true ∧ i ∈ ((cfg0.win 2).blk t).view.set := by
  have hi0 : (i 0).val < 200000 := (i 0).isLt
  have hi1 : (i 1).val < 224 := (i 1).isLt
  let t : Fin cfg0.N := ⟨(i 0).val / 2000, by rw [show cfg0.N = 100 from N_0]; omega⟩
  have htv : t.val = (i 0).val / 2000 := rfl
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 224 ≤ (i 1).val ∧ (i 1).val < win0_2.index t (1 : Fin 2) * 224 + 224; omega

/-- The result array after the run is the segment norms of the arguments. -/
theorem final (c : Dev nD) :
    (dats m 0 c).arrAt 2 cfg0.N = norms (m ((c : Thread nD τ).loc main_arg0)) (m ((c : Thread nD τ).loc main_arg1)) :=
  (dats m 0 c).arrAt_eq_of_cover 2 _ (fun t _ => flushed_eq m c t) cover

/-- The kernel's run, read: the result at the segment norms, the arguments unchanged. -/
theorem run : θ_run defs (onTc (τ := τ) (main (F := Ideal))) ⟨m, fun _ => 0, ρ⟩ fun r => ∀ c : Dev nD,
      r.2.mem ((c : Thread nD τ).loc main_v1) = norms (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelNorms

end
-- ==== Proof.RefNorms.lean ====
/-
  The reference computes the segment norms.

  Its program squares the matrix, transposes it to channels by rows, scatter-adds each channel's row onto the row of
  its segment in a zero array, transposes back and takes the square root. Read at `(n, g)`: the square root of zero
  plus the sum of `x (n, c)²` over the channels `c` whose id is `g`, which is the specification.
-/
import proofs.«416942_j19585050869974_3_alg».proof.Proof.Gen.ReferenceIdeal.Read
import proofs.«416942_j19585050869974_3_alg».proof.Proof.LibSegmentRows
import proofs.«416942_j19585050869974_3_alg».proof.Proof.Norms
import Idealize.ShloMosaic.PureOps.Ideal.Laws

noncomputable section

open scoped BigOperators

namespace Cert.ReferenceIdeal.RefNorms

open Cert.ReferenceIdeal Cert.ReferenceIdeal.Read Idealize.ShloMosaic Idealize.ShloMosaic.ValueIdx Cert.Norms

/-- The result's transpose reads the scatter's array at the swapped index. -/
theorem idx_out (n : Fin 200000) (g : Fin 224) : idx_main_v5 (ix2 n g) = ix2 g n := by
  funext a; match a with | ⟨0, _⟩ => rfl | ⟨1, _⟩ => rfl

/-- The index column at row `c` is channel `c`'s id. -/
theorem idx_col (c : Fin 480) : idx_main_v3 (ix2 c (0 : Fin 1)) = ix1 c := by
  funext a; match a with | ⟨0, _⟩ => rfl

/-- The updates are the squares transposed. -/
theorem idx_upd (c : Fin 480) (n : Fin 200000) : idx_main_v1 (ix2 c n) = ix2 n c := by
  funext a; match a with | ⟨0, _⟩ => rfl | ⟨1, _⟩ => rfl

/-- The printed dimension numbers are those of a row-wise segment sum. -/
theorem scatter_eq : scatter_S224x200000_S480x1_S480x200000_1_0_0_1
    = SegmentRows.rowScatter (G := 224) (C := 480) (N := 200000) Facts₀.scatter_S224x200000_S480x1_S480x200000_1_0_0_1_wf := rfl

/-- The scatter's array at `(g, n)`: the zero it starts from plus the squares of row `n` over segment `g`'s channels. -/
theorem scattered_apply (x0 : SX.Idx → EReal) (x1 : SSeg.Idx → BitVec 32) (g : Fin 224) (n : Fin 200000) :
    val_main_v4 (F := Ideal) x0 x1 (ix2 g n)
      = val_main_v2 (F := Ideal) (ix2 g n)
        + ∑ c : Fin 480, if (val_main_v3 (F := Ideal) x1 (ix2 c (0 : Fin 1))).toInt = (g.val : Int)
            then val_main_v1 (F := Ideal) x0 (ix2 c n) else 0 := by
  unfold val_main_v4 Host.scatterAdd
  rw [Ideal.hostScatterAdd_def, scatter_eq]
  exact SegmentRows.scatterAdd_rows_apply _ _ _ _ g n

/-- The reference's last stage is the segment norms. -/
theorem ref_eq (x0 : SX.Idx → EReal) (x1 : SSeg.Idx → BitVec 32) :
    val_main_v6 (F := Ideal) x0 x1 = norms x0 x1 := by
  funext i
  obtain ⟨n, g, rfl⟩ : ∃ (n : Fin 200000) (g : Fin 224), i = ix2 n g := ⟨i 0, i 1, eq_ix2 i⟩
  rw [val_main_v6_apply, val_main_v5_apply, idx_out, norms_apply]
  rw [scattered_apply, val_main_v2_apply, val_main_cst_apply, Ideal.hostUnary_sqrt_def]
  show Ideal.sqrt (Ideal.ofBits .f32 0x00000000#32 + _) = _
  rw [Ideal.ofBits_zero_f32, zero_add]
  unfold segSq
  congr 1
  refine Finset.sum_congr rfl fun c _ => ?_
  rw [val_main_v3_apply, idx_col, val_main_v1_apply, idx_upd, val_main_v0_apply]
  rfl

end Cert.ReferenceIdeal.RefNorms

end
-- ==== Proof.lean ====
/-
  Segment norms of the rows of a matrix: a kernel that squares a block of rows and multiplies the squares by a 0/1
  selector matrix on the matrix unit, then takes square roots, against a reference that squares, scatter-adds each
  channel onto its segment, and takes square roots.

  Over the extended reals both compute, at row `n` and segment `g`, the square root of the sum of `x (n, c)²` over the
  channels `c` whose segment id is `g` (`Cert.Norms.norms`):
  * the reference, because a scatter-add of one row per channel adds, at segment `g`, exactly the rows whose id is
    `g`, and drops a row whose id is outside `[0, 224)` (`SegmentRows.scatterAdd_rows_apply`, `RefNorms.ref_eq`);
  * the kernel, because the selector's entry `(c, g)` is `1` when channel `c`'s id is `g` and `0` otherwise — an id outside
    `[0, 224)` gives an all-zero row, so that channel is dropped here too — and a sum of terms times such indicators is
    the sum of the selected terms (`SegmentRows.sum_mul_indicator`); the 100 row blocks tile the array
    (`KernelNorms.final`).
  The law `a · 1 = a`, `a · 0 = 0` holds for every extended real, so the precondition is never opened. The three
  programs' frames are the generated ones (the reference's is its run with the result dropped), and the idealization
  rewrote nothing, so its conjunct is `True`.
-/
import proofs.«416942_j19585050869974_3_alg».proof.Defs
import proofs.«416942_j19585050869974_3_alg».proof.Proof.Gen.Kernel
import proofs.«416942_j19585050869974_3_alg».proof.Proof.Gen.Kernel.Skeleton
import proofs.«416942_j19585050869974_3_alg».proof.Proof.Gen.Kernel.Launch
import proofs.«416942_j19585050869974_3_alg».proof.Proof.Gen.Kernel.Points
import proofs.«416942_j19585050869974_3_alg».proof.Proof.Gen.Kernel.Frame
import proofs.«416942_j19585050869974_3_alg».proof.Proof.Gen.KernelIdeal
import proofs.«416942_j19585050869974_3_alg».proof.Proof.Gen.KernelIdeal.Skeleton
import proofs.«416942_j19585050869974_3_alg».proof.Proof.Gen.KernelIdeal.Launch
import proofs.«416942_j19585050869974_3_alg».proof.Proof.Gen.KernelIdeal.Points
import proofs.«416942_j19585050869974_3_alg».proof.Proof.Gen.KernelIdeal.Frame
import proofs.«416942_j19585050869974_3_alg».proof.Proof.Gen.ReferenceIdeal
import proofs.«416942_j19585050869974_3_alg».proof.Proof.Gen.KernelIdeal.Value
import proofs.«416942_j19585050869974_3_alg».proof.Proof.Gen.ReferenceIdeal.Run
import proofs.«416942_j19585050869974_3_alg».proof.Proof.Gen.ReferenceIdeal.Read
import proofs.«416942_j19585050869974_3_alg».proof.Proof.Gen.Pre_finite_inputs
import proofs.«416942_j19585050869974_3_alg».proof.Proof.KernelNorms
import proofs.«416942_j19585050869974_3_alg».proof.Proof.RefNorms
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the segment norms of arguments that agree. -/
theorem algebraic : Cert.algebraic_KernelIdeal_ReferenceIdeal := by
  intro m ρ m' ρ' _ hagree
  refine ⟨_, Cert.KernelIdeal.KernelNorms.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq (F := Ideal) _ _).trans ?_
  refine (Cert.ReferenceIdeal.RefNorms.ref_eq _ _).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
